-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S16x512 : Shape := ⟨2, ![16, 512]⟩
abbrev S1024x16 : Shape := ⟨2, ![1024, 16]⟩
abbrev S2048x1024 : Shape := ⟨2, ![2048, 1024]⟩
abbrev S2048x16 : Shape := ⟨2, ![2048, 16]⟩
abbrev S512x1024 : Shape := ⟨2, ![512, 1024]⟩
abbrev S512x16 : Shape := ⟨2, ![512, 16]⟩
abbrev S16x1024 : Shape := ⟨2, ![16, 1024]⟩

abbrev nBuf : Space → Nat
  | .hbm => 9
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S16x512, .f32⟩
  | .local _ .vmem, ⟨7, _⟩ => ⟨S16x512, .f32⟩
  | .local _ .vmem, ⟨8, _⟩ => ⟨S1024x16, .f32⟩
  | .local _ .vmem, ⟨9, _⟩ => ⟨S1024x16, .f32⟩
  | .local _ .vmem, ⟨10, _⟩ => ⟨S2048x1024, .f32⟩
  | .local _ .vmem, ⟨11, _⟩ => ⟨S2048x1024, .f32⟩
  | .local _ .vmem, ⟨12, _⟩ => ⟨S2048x1024, .f32⟩
  | .local _ .vmem, ⟨13, _⟩ => ⟨S2048x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  transposes_S1024x512_p1_0_S512x1024 : S1024x512.Transposes [1, 0] S512x1024
  inb_S16x512_S16x512_0_0 : ∀ a, (![0, 0] : Fin 2 → Nat) a + S16x512.size a ≤ S16x512.size a
  h_S16x512 : 0 < S16x512.numel
  transposes_S16x512_p1_0_S512x16 : S16x512.Transposes [1, 0] S512x16
  inb_S1024x16_S1024x16_0_0 : ∀ a, (![0, 0] : Fin 2 → Nat) a + S1024x16.size a ≤ S1024x16.size a
  h_S1024x16 : 0 < S1024x16.numel
  transposes_S1024x16_p1_0_S16x1024 : S1024x16.Transposes [1, 0] S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S2048x512_S512x1024_S2048x1024_1_0_0_1_n_n_wf : DotDims.WF S2048x512 S512x1024 S2048x1024 [1] [0] [0] [1] [] []
  dot_S2048x512_S512x16_S2048x16_1_0_0_1_n_n_wf : DotDims.WF S2048x512 S512x16 S2048x16 [1] [0] [0] [1] [] []
  dot_S2048x16_S16x1024_S2048x1024_1_0_0_1_n_n_wf : DotDims.WF S2048x16 S16x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S16x4096.size a
  hwx0_3 : ∀ i : grid0.Coords, EltTy.bits .f32 = 32 ∨ (Rect.block (s := S16x4096) S16x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S4096x16.size a
  hwx0_4 : ∀ i : grid0.Coords, EltTy.bits .f32 = 32 ∨ (Rect.block (s := S4096x16) S1024x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S8192x4096.size a
  hwx0_5 : ∀ i : grid0.Coords, EltTy.bits .f32 = 32 ∨ (Rect.block (s := S8192x4096) S2048x1024.size (cc0_transform_5 i) (hinb0_5 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x512_S512x16_S2048x16_1_0_0_1_n_n : DotDims S2048x512 S512x16 S2048x16 where
  lhsContracting := [1]
  rhsContracting := [0]
  lhsNonContracting := [0]
  rhsNonContracting := [1]
  lhsBatch := []
  rhsBatch := []
  wf := dot_S2048x512_S512x16_S2048x16_1_0_0_1_n_n_wf
def dot_S2048x16_S16x1024_S2048x1024_1_0_0_1_n_n : DotDims S2048x16 S16x1024 S2048x1024 where
  lhsContracting := [1]
  rhsContracting := [0]
  lhsNonContracting := [0]
  rhsNonContracting := [1]
  lhsBatch := []
  rhsBatch := []
  wf := dot_S2048x16_S16x1024_S2048x1024_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.BlockSum.lean ====
/-
  Sums over a long axis taken block by block. An axis of extent `a * b` is `a` consecutive blocks of
  width `b`: position `l` of block `k` is `k * b + l`. A sum over the axis is the sum over the blocks
  of the sums inside each block (only commutativity and associativity of `+`: it holds in any
  commutative monoid, so on the extended reals with no finiteness assumption).
-/
import Idealize.ShloMosaic.Lib.ValueIdx
import Idealize.ShloMosaic.PureOps.Ideal.Laws

noncomputable section

open scoped BigOperators

namespace Cert.BlockSum

/-- Position `l` of block `k`, the blocks `b` wide. -/
def pos (a b : ℕ) (k : Fin a) (l : Fin b) : Fin (a * b) :=
  ⟨k.val * b + l.val, by
    have h1 : k.val * b + l.val < k.val * b + b := Nat.add_lt_add_left l.isLt _
    have h2 : k.val * b + b = (k.val + 1) * b := (Nat.succ_mul _ _).symm
    have h3 : (k.val + 1) * b ≤ a * b := Nat.mul_le_mul_right _ k.isLt
    omega⟩

theorem pos_val (a b : ℕ) (k : Fin a) (l : Fin b) : (pos a b k l).val = k.val * b + l.val := rfl

/-- A sum over an axis of `a` blocks of width `b` is the sum over the blocks of the sums inside them. -/
theorem sum_blocks {M : Type*} [AddCommMonoid M] (a b : ℕ) (f : Fin (a * b) → M) :
    ∑ i, f i = ∑ k : Fin a, ∑ l : Fin b, f (pos a b k l) := by
  rw [← Equiv.sum_comp finProdFinEquiv f, Fintype.sum_prod_type]
  refine Finset.sum_congr rfl fun k _ => Finset.sum_congr rfl fun l _ => congrArg f (Fin.ext ?_)
  show l.val + b * k.val = k.val * b + l.val
  rw [Nat.mul_comm, Nat.add_comm]

end Cert.BlockSum

end
-- ==== Proof.LibRowDot.lean ====
/-
  A plain two-dimensional contraction read at an index. For dimension numbers that contract the left
  operand's last axis with the right operand's first axis and have no batch axes — the numbers of an
  ordinary matrix product `[n, d] × [d, h] → [n, h]` — the sum over the contraction index, at the
  result index `j`, is the sum over `k : Fin d` of the left operand at `(j 0, k)` times the right
  operand at `(k, j 1)`: row `j 0` of the left matrix against column `j 1` of the right one
  (`rowDot`). Stated for ANY such dimension-number record, from equations naming its six lists, so it
  serves a kernel's matrix product on a block of rows and the host's product on a whole array alike.
-/
import Idealize.ShloMosaic.Lib.ValueIdx
import Idealize.ShloMosaic.PureOps.Ideal.Laws

noncomputable section

open scoped BigOperators

namespace Cert.LibRowDot

open Idealize.ShloMosaic Idealize.ShloMosaic.ValueIdx

/-- A matrix of extended reals with `n` rows and `d` columns, as a function of its rank-2 index. -/
abbrev Mat (n d : ℕ) : Type := (⟨2, ![n, d]⟩ : Shape).Idx → EReal

/-- Row `r` of `a` against column `q` of `w`: `∑ k, a (r, k) · w (k, q)`. -/
def rowDot {n d h : ℕ} (a : Mat n d) (w : Mat d h) (r : Fin n) (q : Fin h) : EReal :=
  ∑ k : Fin d, a (ix2 r k) * w (ix2 k q)

section Plain

variable {n d h : ℕ} (D : DotDims ⟨2, ![n, d]⟩ ⟨2, ![d, h]⟩ ⟨2, ![n, h]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) :
    D.contr.size ⟨0, by rw [contr_rank D hlc]; exact Nat.one_pos⟩ = d := by
  have h := D.size_contr 0 (by rw [hlc]; exact Nat.one_pos)
  rw [h]
  simp only [hlc, List.getElem_cons_zero]
  rfl

private theorem coord_congr {m : ℕ} {sz : Fin m → ℕ} (j : (a : Fin m) → Fin (sz a)) :
    ∀ (p q : ℕ) (hp : p < m) (hq : q < m), p = q → (j ⟨p, hp⟩).val = (j ⟨q, hq⟩).val :=
  fun p q hp hq e => by subst e; rfl

/-- The left operand's row coordinate is the result's row coordinate. -/
theorem lhs_row (hln : D.lhsNonContracting = [0]) (hlb : D.lhsBatch = [])
    (j : (⟨2, ![n, h]⟩ : Shape).Idx) (k : D.contr.Idx) : (D.lhsIdx j k 0).val = (j 0).val := by
  have hb : (0 : Fin (⟨2, ![n, d]⟩ : Shape).rank) ∉ D.lhsBatch := by rw [hlb]; exact List.not_mem_nil
  have hn : (0 : Fin (⟨2, ![n, d]⟩ : Shape).rank) ∈ D.lhsNonContracting := by rw [hln]; exact List.mem_singleton.mpr rfl
  unfold DotDims.lhsIdx
  rw [dif_neg hb, dif_pos hn]
  simp only [Fin.val_cast]
  exact coord_congr j _ _ _ _ (by simp [hlb, hln])

/-- The left operand's column coordinate is the contraction index's one coordinate. -/
theorem lhs_col (hlc : D.lhsContracting = [1]) (j : (⟨2, ![n, h]⟩ : Shape).Idx) (k : D.contr.Idx) :
    (D.lhsIdx j k 1).val = (k ⟨0, by rw [contr_rank D hlc]; exact Nat.one_pos⟩).val :=
  D.lhsIdx_val_of_single hlc j k

/-- The right operand's row coordinate is the contraction index's one coordinate. -/
theorem rhs_row (hlc : D.lhsContracting = [1]) (hrc : D.rhsContracting = [0]) (j : (⟨2, ![n, h]⟩ : Shape).Idx)
    (k : D.contr.Idx) : (D.rhsIdx j k 0).val = (k ⟨0, by rw [contr_rank D hlc]; exact Nat.one_pos⟩).val :=
  D.rhsIdx_val_of_single hrc j k

/-- The right operand's column coordinate is the result's column coordinate. -/
theorem rhs_col (hln : D.lhsNonContracting = [0]) (hrn : D.rhsNonContracting = [1]) (hlb : D.lhsBatch = [])
    (hrb : D.rhsBatch = []) (j : (⟨2, ![n, h]⟩ : Shape).Idx) (k : D.contr.Idx) :
    (D.rhsIdx j k 1).val = (j 1).val := by
  have hb : (1 : Fin (⟨2, ![d, h]⟩ : Shape).rank) ∉ D.rhsBatch := by rw [hrb]; exact List.not_mem_nil
  have hn : (1 : Fin (⟨2, ![d, h]⟩ : Shape).rank) ∈ D.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- THE CONTRACTION AS A ROW AGAINST A COLUMN: the sum over the record's contraction index is `rowDot`. -/
theorem sum_contr_eq_rowDot (hlc : D.lhsContracting = [1]) (hrc : D.rhsContracting = [0])
    (hln : D.lhsNonContracting = [0]) (hrn : D.rhsNonContracting = [1]) (hlb : D.lhsBatch = [])
    (hrb : D.rhsBatch = []) (l : Mat n d) (r : Mat d h) (j : (⟨2, ![n, h]⟩ : Shape).Idx) :
    ∑ k : D.contr.Idx, l (D.lhsIdx j k) * r (D.rhsIdx j k) = rowDot l r (j 0) (j 1) := by
  unfold rowDot
  rw [← Equiv.sum_comp (contrEquiv1 D d (contr_rank D hlc) (contr_size D hlc)).symm]
  refine Finset.sum_congr rfl fun k _ => ?_
  have hk := contrEquiv1_symm_val D d (contr_rank D hlc) (contr_size D hlc) k
  have el : D.lhsIdx j ((contrEquiv1 D d (contr_rank D hlc) (contr_size D hlc)).symm k) = ix2 (j 0) k := by
    funext a; apply Fin.ext
    match a with
    | ⟨0, _⟩ => exact lhs_row D hln hlb _ _
    | ⟨1, _⟩ => exact (lhs_col D hlc _ _).trans hk
  have er : D.rhsIdx j ((contrEquiv1 D d (contr_rank D hlc) (contr_size D hlc)).symm k) = ix2 k (j 1) := by
    funext a; apply Fin.ext
    match a with
    | ⟨0, _⟩ => exact (rhs_row D hlc hrc _ _).trans hk
    | ⟨1, _⟩ => exact rhs_col D hln hrn hlb hrb _ _
  exact congrArg₂ (· * ·) (congrArg l el) (congrArg r er)

/-- A kernel's matrix product into a zero accumulator, at the ideal values, read at an index. -/
theorem matmul_zero_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (l : FVec Ideal ⟨2, ![n, d]⟩ .f32)
    (r : FVec Ideal ⟨2, ![d, h]⟩ .f32) (j : (⟨2, ![n, h]⟩ : Shape).Idx) :
    FloatOps.matmul D prec l r (constant ⟨2, ![n, h]⟩ .f32 0x00000000#32) j = rowDot l r (j 0) (j 1) := by
  rw [Ideal.matmul_constant_zero_apply]
  exact sum_contr_eq_rowDot D hlc hrc hln hrn hlb hrb l r j

/-- The host's matrix product, at the ideal values, read at an index. -/
theorem dotGeneral_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (sched : HostSchedule)
    (l : FVec Ideal ⟨2, ![n, d]⟩ .f32) (r : FVec Ideal ⟨2, ![d, h]⟩ .f32) (j : (⟨2, ![n, h]⟩ : Shape).Idx) :
    FloatOps.dotGeneral D prec sched l r j = rowDot l r (j 0) (j 1) := by
  rw [Ideal.dotGeneral_apply]
  exact sum_contr_eq_rowDot D hlc hrc hln hrn hlb hrb l r j

end Plain

end Cert.LibRowDot

end
-- ==== Proof.Spec.lean ====
/-
  The mathematics of the low-rank-adapted linear layer, with no program in sight.

  For activations `x[b, s, k]` (4 × 2048 × 4096), a weight `w[o, k]`, a bias `bv[o]`, and the two
  adapter factors `a[r, k]` (16 × 4096) and `bm[o, r]` (4096 × 16), the layer's result is

      G[b, s, o] = (∑ₖ x[b,s,k]·w[o,k] + bv[o]) + (∑ᵣ (∑ₖ x[b,s,k]·a[r,k]) · bm[o,r]) · 2 .

  The same function on the activations flattened to 8192 rows (`G2`: row `b·2048 + s`), and the fact
  that flattening, applying `G2` and un-flattening is `G` (`G2_reshape`).

  A sum over the 4096 contracted positions is taken in 8 consecutive blocks of 512: `blkDot` is one
  block's share of a row-against-row product, with row and block numbers in ℕ (coordinates are read
  modulo the extents, so the function is total and arithmetic on the numbers needs no proofs), and
  `sum_blkDot` says the 8 shares add up to the whole product. Nothing but commutativity and
  associativity of `+` on the extended reals is used: no finiteness is needed anywhere.
-/
import Idealize.ShloMosaic.Lib.ValueIdx
import Idealize.ShloMosaic.Lib.Pipeline.Value
import Idealize.ShloMosaic.PureOps.Ideal.Laws
import proofs.«167257_j76836964925565_1_alg».proof.Proof.BlockSum
import proofs.«167257_j76836964925565_1_alg».proof.Proof.LibRowDot

noncomputable section

open scoped BigOperators

namespace Cert.Spec

open Idealize.ShloMosaic Idealize.ShloMosaic.ValueIdx Cert.LibRowDot

/-- Activations and results: 4 × 2048 × 4096 extended reals. -/
abbrev Act : Type := (⟨3, ![4, 2048, 4096]⟩ : Shape).Idx → EReal
/-- The bias: 4096 extended reals. -/
abbrev Bias : Type := (⟨1, ![4096]⟩ : Shape).Idx → EReal

/-- The adapter's scale `2.0`, as the 32-bit word both programs print. -/
abbrev two : EReal := Ideal.ofBits .f32 0x40000000#32

/-- Row `r` of `a` against row `q` of `w`: both matrices carry the contracted axis last. -/
def rowRow {n h d : ℕ} (a : Mat n d) (w : Mat h d) (r : Fin n) (q : Fin h) : EReal :=
  ∑ k : Fin d, a (ix2 r k) * w (ix2 q k)

/-- The layer on flattened activations (8192 rows) and a bias laid out as one row. -/
def G2 (x2 : Mat 8192 4096) (w : Mat 4096 4096) (b2 : Mat 1 4096) (a : Mat 16 4096) (bm : Mat 4096 16) :
    Mat 8192 4096 := fun j =>
  (rowRow x2 w (j 0) (j 1) + b2 (ix2 0 (j 1)))
    + (∑ r : Fin 16, rowRow x2 a (j 0) r * bm (ix2 (j 1) r)) * two

/-- The layer. -/
def G (x : Act) (w : Mat 4096 4096) (bv : Bias) (a : Mat 16 4096) (bm : Mat 4096 16) : Act := fun i =>
  (∑ k : Fin 4096, x (ix3 (i 0) (i 1) k) * w (ix2 (i 2) k) + bv (ix1 (i 2)))
    + (∑ r : Fin 16, (∑ k : Fin 4096, x (ix3 (i 0) (i 1) k) * a (ix2 r k)) * bm (ix2 (i 2) r)) * two

/-! ## Flattening -/

/-- Row `b·2048 + s` of the flattened activations. -/
def flatRow (b : Fin 4) (s : Fin 2048) : Fin 8192 := ⟨b.val * 2048 + s.val, by have := b.isLt; have := s.isLt; omega⟩

theorem reshape_x_apply (x : Act) (h : (⟨3, ![4, 2048, 4096]⟩ : Shape).ShapeCasts ⟨2, ![8192, 4096]⟩)
    (b : Fin 4) (s : Fin 2048) (k : Fin 4096) :
    shapeCast ⟨2, ![8192, 4096]⟩ x h (ix2 (flatRow b s) k) = x (ix3 b s k) :=
  shapeCast_apply x h _ _ (by
    rw [Shape.rowMajor_val_three, Shape.rowMajor_val_two]
    rfl)

theorem reshape_b_apply (bv : Bias) (h : (⟨1, ![4096]⟩ : Shape).ShapeCasts ⟨2, ![1, 4096]⟩) (o : Fin 4096) :
    shapeCast ⟨2, ![1, 4096]⟩ bv h (ix2 (0 : Fin 1) o) = bv (ix1 o) :=
  shapeCast_apply bv h _ _ (by
    rw [Shape.rowMajor_val_one, Shape.rowMajor_val_two]
    show o.val = 0 * 4096 + o.val
    omega)

theorem reshape_out_apply (y : Mat 8192 4096) (h : (⟨2, ![8192, 4096]⟩ : Shape).ShapeCasts ⟨3, ![4, 2048, 4096]⟩)
    (b : Fin 4) (s : Fin 2048) (o : Fin 4096) :
    shapeCast ⟨3, ![4, 2048, 4096]⟩ y h (ix3 b s o) = y (ix2 (flatRow b s) o) :=
  shapeCast_apply y h _ _ (by
    rw [Shape.rowMajor_val_three, Shape.rowMajor_val_two]
    rfl)

/-- Flatten, apply the flattened layer, un-flatten: the layer. -/
theorem G2_reshape (x : Act) (w : Mat 4096 4096) (bv : Bias) (a : Mat 16 4096) (bm : Mat 4096 16)
    (hx : (⟨3, ![4, 2048, 4096]⟩ : Shape).ShapeCasts ⟨2, ![8192, 4096]⟩)
    (hb : (⟨1, ![4096]⟩ : Shape).ShapeCasts ⟨2, ![1, 4096]⟩)
    (ho : (⟨2, ![8192, 4096]⟩ : Shape).ShapeCasts ⟨3, ![4, 2048, 4096]⟩) :
    shapeCast ⟨3, ![4, 2048, 4096]⟩
        (G2 (shapeCast ⟨2, ![8192, 4096]⟩ x hx) w (shapeCast ⟨2, ![1, 4096]⟩ bv hb) a bm) ho
      = G x w bv a bm := by
  funext i
  obtain ⟨b, s, o, rfl⟩ : ∃ (b : Fin 4) (s : Fin 2048) (o : Fin 4096), i = ix3 b s o := ⟨i 0, i 1, i 2, eq_ix3 i⟩
  rw [reshape_out_apply]
  show (∑ k : Fin 4096, shapeCast ⟨2, ![8192, 4096]⟩ x hx (ix2 (flatRow b s) k) * w (ix2 o k)
        + shapeCast ⟨2, ![1, 4096]⟩ bv hb (ix2 (0 : Fin 1) o))
      + (∑ r : Fin 16, (∑ k : Fin 4096, shapeCast ⟨2, ![8192, 4096]⟩ x hx (ix2 (flatRow b s) k) * a (ix2 r k))
          * bm (ix2 o r)) * two
    = (∑ k : Fin 4096, x (ix3 b s k) * w (ix2 o k) + bv (ix1 o))
      + (∑ r : Fin 16, (∑ k : Fin 4096, x (ix3 b s k) * a (ix2 r k)) * bm (ix2 o r)) * two
  simp only [reshape_x_apply, reshape_b_apply]

/-! ## The contraction in 8 blocks of 512 -/

/-- A coordinate in ℕ read modulo the extent. -/
def modIdx (n : ℕ) [NeZero n] (a : ℕ) : Fin n := ⟨a % n, Nat.mod_lt a (Nat.pos_of_neZero n)⟩

theorem modIdx_of_lt {n : ℕ} [NeZero n] {a : ℕ} (ha : a < n) : modIdx n a = ⟨a, ha⟩ :=
  Fin.ext (Nat.mod_eq_of_lt ha)

/-- Entry `(r, c)` of a matrix, the coordinates in ℕ. -/
def ent {n d : ℕ} [NeZero n] [NeZero d] (a : Mat n d) (r c : ℕ) : EReal := a (ix2 (modIdx n r) (modIdx d c))

theorem ent_of_lt {n d : ℕ} [NeZero n] [NeZero d] (a : Mat n d) {r c : ℕ} (hr : r < n) (hc : c < d) :
    ent a r c = a (ix2 ⟨r, hr⟩ ⟨c, hc⟩) := by
  unfold ent; rw [modIdx_of_lt hr, modIdx_of_lt hc]

/-- Block `s`'s share of row `r` of `a` against row `q` of `w`: positions `512·s … 512·s + 511`. -/
def blkDot {n h : ℕ} [NeZero n] [NeZero h] (a : Mat n 4096) (w : Mat h 4096) (r q s : ℕ) : EReal :=
  ∑ l : Fin 512, ent a r (s * 512 + l.val) * ent w q (s * 512 + l.val)

/-- The 8 shares add up to the whole product. -/
theorem sum_blkDot {n h : ℕ} [NeZero n] [NeZero h] (a : Mat n 4096) (w : Mat h 4096) (r : Fin n) (q : Fin h) :
    ∑ s ∈ Finset.range 8, blkDot a w r.val q.val s = rowRow a w r q := by
  rw [Finset.sum_range]
  unfold rowRow
  refine Eq.trans ?_ (BlockSum.sum_blocks 8 512 (fun k : Fin (8 * 512) => a (ix2 r k) * w (ix2 q k))).symm
  refine Finset.sum_congr rfl fun s _ => Finset.sum_congr rfl fun l _ => ?_
  have hc : s.val * 512 + l.val < 4096 := by have := s.isLt; have := l.isLt; omega
  rw [ent_of_lt a r.isLt hc, ent_of_lt w q.isLt hc]
  rfl

end Cert.Spec

end
-- ==== Proof.RefValue.lean ====
/-
  The reference computes the layer: read one operation at a time at an index, its result is
  `(∑ₖ x[b,s,k]·w[o,k] + bv[o]) + (∑ᵣ (∑ₖ x[b,s,k]·a[r,k]) · bm[o,r]) · 2`, the function `Spec.G`.
  The bias reaches the sum through two broadcasts (to 1 × 1 × 4096, then to the full shape), the scale
  through a broadcast of a scalar; the three products are sums over the contracted axis.
-/
import proofs.«167257_j76836964925565_1_alg».proof.Proof.Gen.ReferenceIdeal.Read
import proofs.«167257_j76836964925565_1_alg».proof.Proof.Spec

noncomputable section

open scoped BigOperators

namespace Cert.ReferenceIdeal.RefValue

open Idealize.ShloMosaic Idealize.ShloMosaic.ValueIdx Cert.ReferenceIdeal Cert.ReferenceIdeal.Read Cert.Spec

/-- The reference's result, as a function of its five arguments, is the layer. -/
theorem ref_eq_G (x : (⟨S4x2048x4096, .f32⟩ : BufTy).Contents (Elt Ideal)) (w : (⟨S4096x4096, .f32⟩ : BufTy).Contents (Elt Ideal))
    (bv : (⟨S4096, .f32⟩ : BufTy).Contents (Elt Ideal)) (a : (⟨S16x4096, .f32⟩ : BufTy).Contents (Elt Ideal))
    (bm : (⟨S4096x16, .f32⟩ : BufTy).Contents (Elt Ideal)) :
    val_main_v8 (F := Ideal) x w bv a bm = G x w bv a bm := by
  funext i
  have e0 : ∀ k, lidx_main_v0 i k = ix3 (i 0) (i 1) k := fun k => funext fun d => Fin.ext (by
    match d with | ⟨0, _⟩ => rfl | ⟨1, _⟩ => rfl | ⟨2, _⟩ => rfl)
  have e1 : ∀ k, ridx_main_v0 i k = ix2 (i 2) k := fun k => funext fun d => Fin.ext (by
    match d with | ⟨0, _⟩ => rfl | ⟨1, _⟩ => rfl)
  have e2 : idx_main_v1 (idx_main_v2 i) = ix1 (i 2) := funext fun d => Fin.ext (by
    match d with | ⟨0, _⟩ => rfl)
  have e3 : ∀ r k, lidx_main_v4 (lidx_main_v5 i r) k = ix3 (i 0) (i 1) k := fun r k => funext fun d => Fin.ext (by
    match d with | ⟨0, _⟩ => rfl | ⟨1, _⟩ => rfl | ⟨2, _⟩ => rfl)
  have e4 : ∀ r k, ridx_main_v4 (lidx_main_v5 i r) k = ix2 r k := fun r k => funext fun d => Fin.ext (by
    match d with | ⟨0, _⟩ => rfl | ⟨1, _⟩ => rfl)
  have e5 : ∀ r, ridx_main_v5 i r = ix2 (i 2) r := fun r => funext fun d => Fin.ext (by
    match d with | ⟨0, _⟩ => rfl | ⟨1, _⟩ => rfl)
  rw [val_main_v8_apply, val_main_v3_apply, val_main_v7_apply, val_main_v0_apply, val_main_v2_apply, val_main_v1_apply,
    val_main_v5_apply, val_main_v6_apply, val_main_cst_apply]
  simp only [val_main_v4_apply, e0, e1, e2, e3, e4, e5, Ideal.addf_def, Ideal.mulf_def, Ideal.ofBits_def]
  rfl

end Cert.ReferenceIdeal.RefValue

end
-- ==== Proof.Blocks.lean ====
/-
  The blocks the kernel's windows read, as entries of the arrays the kernel region finds.

  The grid has 4 × 4 × 8 points in row-major order: point `t` is row block `t / 32` of the 8192
  flattened activation rows (2048 rows each), column block `t / 8 % 4` of the 4096 outputs (1024
  each), and step `t % 8` along the 4096 contracted positions (512 each). A block's coordinate is
  always block index × block size + the coordinate inside the block.

  Before the region the host flattens the activations to 8192 × 4096 and lays the bias out as one row.
-/
import proofs.«167257_j76836964925565_1_alg».proof.Proof.Gen.KernelIdeal.Frame
import proofs.«167257_j76836964925565_1_alg».proof.Proof.Spec
import Idealize.ShloMosaic.Lib.Pipeline.Value
import Idealize.ShloMosaic.Lib.StableHlo.Run
import Idealize.ShloMosaic.Lib.Tactic

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.LibRowDot Cert.Spec

variable (m : (ℓ : Loc nD τ sig) → Buf (Elt Ideal) ℓ)

/-! ## The arrays the region finds, and the blocks of a point, at their literal types -/

/-- The flattened activations. -/
abbrev X2 (c : Dev nD) : Mat 8192 4096 := V m c main_v0
/-- The weight. -/
abbrev Wm (c : Dev nD) : Mat 4096 4096 := V m c main_arg1
/-- The bias as one row. -/
abbrev B2 (c : Dev nD) : Mat 1 4096 := V m c main_v1
/-- The first adapter factor. -/
abbrev Am (c : Dev nD) : Mat 16 4096 := V m c main_arg3
/-- The second adapter factor. -/
abbrev Bm (c : Dev nD) : Mat 4096 16 := V m c main_arg4

abbrev blk0 (c : Dev nD) (t : Fin cfg0.N) : Vec Ideal S2048x512 .f32 := iblk m c 0 t
abbrev blk1 (c : Dev nD) (t : Fin cfg0.N) : Vec Ideal S1024x512 .f32 := iblk m c 1 t
abbrev blk2 (c : Dev nD) (t : Fin cfg0.N) : Vec Ideal S1x1024 .f32 := iblk m c 2 t
abbrev blk3 (c : Dev nD) (t : Fin cfg0.N) : Vec Ideal S16x512 .f32 := iblk m c 3 t
abbrev blk4 (c : Dev nD) (t : Fin cfg0.N) : Vec Ideal S1024x16 .f32 := iblk m c 4 t

/-! ## The index maps over the grid -/

theorem idx0 : ∀ t : Fin cfg0.N, win0_0.index t (0 : Fin 2) = t.val / 32 ∧ win0_0.index t (1 : Fin 2) = t.val % 8 :=
  (by decide +kernel : ∀ t : Fin grid0.N, win0_0.index t (0 : Fin 2) = t.val / 32 ∧ win0_0.index t (1 : Fin 2) = t.val % 8)
theorem idx1 : ∀ t : Fin cfg0.N, win0_1.index t (0 : Fin 2) = t.val / 8 % 4 ∧ win0_1.index t (1 : Fin 2) = t.val % 8 :=
  (by decide +kernel : ∀ t : Fin grid0.N, win0_1.index t (0 : Fin 2) = t.val / 8 % 4 ∧ win0_1.index t (1 : Fin 2) = t.val % 8)
theorem idx2 : ∀ t : Fin cfg0.N, win0_2.index t (0 : Fin 2) = 0 ∧ win0_2.index t (1 : Fin 2) = t.val / 8 % 4 :=
  (by decide +kernel : ∀ t : Fin grid0.N, win0_2.index t (0 : Fin 2) = 0 ∧ win0_2.index t (1 : Fin 2) = t.val / 8 % 4)
theorem idx3 : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)
theorem idx4 : ∀ t : Fin cfg0.N, win0_4.index t (0 : Fin 2) = t.val / 8 % 4 ∧ win0_4.index t (1 : Fin 2) = 0 :=
  (by decide +kernel : ∀ t : Fin grid0.N, win0_4.index t (0 : Fin 2) = t.val / 8 % 4 ∧ win0_4.index t (1 : Fin 2) = 0)
theorem idx5 : ∀ t : Fin cfg0.N, win0_5.index t (0 : Fin 2) = t.val / 32 ∧ win0_5.index t (1 : Fin 2) = t.val / 8 % 4 :=
  (by decide +kernel : ∀ t : Fin grid0.N, win0_5.index t (0 : Fin 2) = t.val / 32 ∧ win0_5.index t (1 : Fin 2) = t.val / 8 % 4)

theorem lt128 (t : Fin cfg0.N) : t.val < 128 := lt_of_lt_of_eq t.isLt N_0

/-! ## A block's entry is an entry of its array -/

/-- Activation block: rows `2048·(t/32) …`, contracted positions `512·(t%8) …`. -/
theorem blk0_apply (c : Dev nD) (t : Fin cfg0.N) (p : Fin 2048) (l : Fin 512) :
    blk0 m c t (ix2 p l) = ent (X2 m c) (t.val / 32 * 2048 + p.val) (t.val % 8 * 512 + l.val) := by
  have hN := lt128 t
  rw [ent_of_lt _ (by omega) (by omega)]
  unfold blk0 iblk
  rw [View.read_apply]
  show V m c main_v0 _ = V m c main_v0 _
  congr 1
  funext a
  apply Fin.ext
  match a with
  | ⟨0, _⟩ => show win0_0.index t 0 * 2048 + 1 * p.val = t.val / 32 * 2048 + p.val; rw [(idx0 t).1]; omega
  | ⟨1, _⟩ => show win0_0.index t 1 * 512 + 1 * l.val = t.val % 8 * 512 + l.val; rw [(idx0 t).2]; omega

/-- Weight block: output rows `1024·(t/8%4) …`, contracted positions `512·(t%8) …`. -/
theorem blk1_apply (c : Dev nD) (t : Fin cfg0.N) (q : Fin 1024) (l : Fin 512) :
    blk1 m c t (ix2 q l) = ent (Wm m c) (t.val / 8 % 4 * 1024 + q.val) (t.val % 8 * 512 + l.val) := by
  have hN := lt128 t
  rw [ent_of_lt _ (by omega) (by omega)]
  unfold blk1 iblk
  rw [View.read_apply]
  show V m c main_arg1 _ = V m c main_arg1 _
  congr 1
  funext a
  apply Fin.ext
  match a with
  | ⟨0, _⟩ => show win0_1.index t 0 * 1024 + 1 * q.val = t.val / 8 % 4 * 1024 + q.val; rw [(idx1 t).1]; omega
  | ⟨1, _⟩ => show win0_1.index t 1 * 512 + 1 * l.val = t.val % 8 * 512 + l.val; rw [(idx1 t).2]; omega

/-- Column `1024·(t/8%4) + q` of the outputs. -/
def outCol (t : Fin cfg0.N) (q : Fin 1024) : Fin 4096 := ⟨t.val / 8 % 4 * 1024 + q.val, by have := q.isLt; omega⟩

/-- Row `2048·(t/32) + p` of the flattened activations. -/
def outRow (t : Fin cfg0.N) (p : Fin 2048) : Fin 8192 := ⟨t.val / 32 * 2048 + p.val, by have := lt128 t; have := p.isLt; omega⟩

/-- Bias block: the one row, outputs `1024·(t/8%4) …`. -/
theorem blk2_apply (c : Dev nD) (t : Fin cfg0.N) (q : Fin 1024) :
    blk2 m c t (ix2 (0 : Fin 1) q) = B2 m c (ix2 (0 : Fin 1) (outCol t q)) := by
  unfold blk2 iblk
  rw [View.read_apply]
  show V m c main_v1 _ = V m c main_v1 _
  congr 1
  funext a
  apply Fin.ext
  match a with
  | ⟨0, _⟩ => show win0_2.index t 0 * 1 + 1 * 0 = 0; rw [(idx2 t).1]
  | ⟨1, _⟩ => show win0_2.index t 1 * 1024 + 1 * q.val = t.val / 8 % 4 * 1024 + q.val; rw [(idx2 t).2]; omega

/-- First adapter factor's block: all 16 rows, contracted positions `512·(t%8) …`. -/
theorem blk3_apply (c : Dev nD) (t : Fin cfg0.N) (r : Fin 16) (l : Fin 512) :
    blk3 m c t (ix2 r l) = ent (Am m c) r.val (t.val % 8 * 512 + l.val) := by
  have hN := lt128 t
  rw [ent_of_lt _ r.isLt (by omega)]
  unfold blk3 iblk
  rw [View.read_apply]
  show V m c main_arg3 _ = V m c main_arg3 _
  congr 1
  funext a
  apply Fin.ext
  match a with
  | ⟨0, _⟩ => show win0_3.index t 0 * 16 + 1 * r.val = r.val; rw [(idx3 t).1]; omega
  | ⟨1, _⟩ => show win0_3.index t 1 * 512 + 1 * l.val = t.val % 8 * 512 + l.val; rw [(idx3 t).2]; omega

/-- Second adapter factor's block: output rows `1024·(t/8%4) …`, all 16 columns. -/
theorem blk4_apply (c : Dev nD) (t : Fin cfg0.N) (q : Fin 1024) (r : Fin 16) :
    blk4 m c t (ix2 q r) = Bm m c (ix2 (outCol t q) r) := by
  unfold blk4 iblk
  rw [View.read_apply]
  show V m c main_arg4 _ = V m c main_arg4 _
  congr 1
  funext a
  apply Fin.ext
  match a with
  | ⟨0, _⟩ => show win0_4.index t 0 * 1024 + 1 * q.val = t.val / 8 % 4 * 1024 + q.val; rw [(idx4 t).1]; omega
  | ⟨1, _⟩ => show win0_4.index t 1 * 16 + 1 * r.val = r.val; rw [(idx4 t).2]; omega

/-! ## What the host prepared before the region -/

/-- The region finds the activations flattened. -/
theorem X2_eq (c : Dev nD) :
    X2 m c = shapeCast S8192x4096 (m ((c : Thread nD τ).loc main_arg0)) shapeCasts_S4x2048x4096_S8192x4096 := by
  show StableHlo.after hostOps0 (fun b => m (c, b)) (Proc.devRef .tc main_v0) = _
  after_results
  rfl

/-- The region finds the bias laid out as one row. -/
theorem B2_eq (c : Dev nD) :
    B2 m c = shapeCast S1x4096 (m ((c : Thread nD τ).loc main_arg2)) shapeCasts_S4096_S1x4096 := by
  show StableHlo.after hostOps0 (fun b => m (c, b)) (Proc.devRef .tc main_v1) = _
  after_results
  rfl

theorem Wm_eq (c : Dev nD) : Wm m c = m ((c : Thread nD τ).loc main_arg1) := V_main_arg1 m c
theorem Am_eq (c : Dev nD) : Am m c = m ((c : Thread nD τ).loc main_arg3) := V_main_arg3 m c
theorem Bm_eq (c : Dev nD) : Bm m c = m ((c : Thread nD τ).loc main_arg4) := V_main_arg4 m c

end Cert.KernelIdeal.Blocks

end
-- ==== Proof.PayIdx.lean ====
/-
  The kernel body's arithmetic read at an index, over the extended reals.

  One grid point adds to the main accumulator the product of its 2048 × 512 activation block with
  its 1024 × 512 weight block (contracted over the 512 shared positions), and to the adapter
  accumulator the product of the same activation block with its 16 × 512 block of the first adapter
  factor; the changes of float format around the products are the identity on the extended reals.
  The last point of a row of blocks writes
  `(main + bias) + (adapter accumulator × second adapter factor's block) · 2`.
-/
import proofs.«167257_j76836964925565_1_alg».proof.Proof.Gen.KernelIdeal.Skeleton
import proofs.«167257_j76836964925565_1_alg».proof.Proof.LibRowDot
import Idealize.ShloMosaic.Lib.ValueIdx
import Idealize.ShloMosaic.Lib.Pipeline.Value
import Idealize.ShloMosaic.PureOps.Ideal.Laws

noncomputable section

open scoped BigOperators

namespace Cert.KernelIdeal.PayIdx

open Idealize.ShloMosaic Idealize.ShloMosaic.ValueIdx Cert.KernelIdeal Cert.KernelIdeal.Gen Cert.LibRowDot

/-- A transposed matrix at `(k, q)` is the matrix at `(q, k)`. -/
theorem transpose_10_apply {n d : ℕ} {α : Type} (y : (⟨2, ![n, d]⟩ : Shape).Idx → α)
    (h : (⟨2, ![n, d]⟩ : Shape).Transposes [1, 0] ⟨2, ![d, n]⟩) (k : Fin d) (q : Fin n) :
    transpose ⟨2, ![d, n]⟩ [1, 0] y h (ix2 k q) = y (ix2 q k) :=
  transpose_apply _ y h _ _ fun b => match b with | ⟨0, _⟩ => rfl | ⟨1, _⟩ => rfl

/-- A plain matrix product into a zero accumulator, whatever the operands' float formats, at an index:
    the row of the left matrix against the column of the right one. -/
theorem matmul_zero_rowDot {n d h : ℕ} (D : DotDims ⟨2, ![n, d]⟩ ⟨2, ![d, h]⟩ ⟨2, ![n, h]⟩)
    (hlc : D.lhsContracting = [1]) (hrc : D.rhsContracting = [0])
    (hln : D.lhsNonContracting = [0]) (hrn : D.rhsNonContracting = [1]) (hlb : D.lhsBatch = [])
    (hrb : D.rhsBatch = []) (prec : Option ContractPrecision) {φ₁ φ₂ : FTy}
    (l : FVec Ideal ⟨2, ![n, d]⟩ φ₁) (r : FVec Ideal ⟨2, ![d, h]⟩ φ₂) (j : (⟨2, ![n, h]⟩ : Shape).Idx) :
    FloatOps.matmul D prec l r (constant ⟨2, ![n, h]⟩ .f32 0x00000000#32) j = rowDot l r (j 0) (j 1) := by
  rw [Ideal.matmul_constant_zero_apply]
  exact sum_contr_eq_rowDot D hlc hrc hln hrn hlb hrb l r j

/-- The zero block the first point of a row of blocks stores into the main accumulator. -/
theorem pay1_apply (j : S2048x1024.Idx) : k0_pay1 (F := Ideal) j = 0 := by
  unfold k0_pay1
  exact (congrFun (shapeCast_self _ _) j).trans Ideal.ofBits_zero_f32

/-- The zero block it stores into the adapter accumulator. -/
theorem pay2_apply (j : S2048x16.Idx) : k0_pay2 (F := Ideal) j = 0 := by
  unfold k0_pay2
  exact (congrFun (shapeCast_self _ _) j).trans Ideal.ofBits_zero_f32

/-- The main accumulator after a point: what it held plus the activation block's row `p` against the
    weight block's row `q`. -/
theorem pay4_apply (v3 : Vec Ideal S2048x512 .f32) (v6 : Vec Ideal S1024x512 .f32) (v8 : Vec Ideal S2048x1024 .f32)
    (p : Fin 2048) (q : Fin 1024) :
    k0_pay4 (F := Ideal) v3 v6 v8 (ix2 p q) = v8 (ix2 p q) + ∑ l : Fin 512, v3 (ix2 p l) * v6 (ix2 q l) := by
  unfold k0_pay4 k0_pay3
  refine (congrFun (shapeCast_self _ _) (ix2 p q)).trans ?_
  refine congrArg (v8 (ix2 p q) + ·) ?_
  refine (matmul_zero_rowDot dot_S2048x512_S512x1024_S2048x1024_1_0_0_1_n_n rfl rfl rfl rfl rfl rfl none _ _ (ix2 p q)).trans ?_
  unfold rowDot
  refine Finset.sum_congr rfl fun l _ => ?_
  refine congrArg₂ (· * ·) (congrFun (shapeCast_self v3 _) (ix2 p l)) ?_
  exact transpose_10_apply (n := 1024) (d := 512) _ _ l q

/-- The adapter accumulator after a point: what it held plus the activation block's row `p` against row
    `r` of the first adapter factor's block. -/
theorem pay5_apply (v3 : Vec Ideal S2048x512 .f32) (v15 : Vec Ideal S16x512 .f32) (v17 : Vec Ideal S2048x16 .f32)
    (p : Fin 2048) (r : Fin 16) :
    k0_pay5 (F := Ideal) v3 v15 v17 (ix2 p r) = v17 (ix2 p r) + ∑ l : Fin 512, v3 (ix2 p l) * v15 (ix2 r l) := by
  unfold k0_pay5 k0_pay3
  refine (congrFun (shapeCast_self _ _) (ix2 p r)).trans ?_
  refine congrArg (v17 (ix2 p r) + ·) ?_
  refine (matmul_zero_rowDot dot_S2048x512_S512x16_S2048x16_1_0_0_1_n_n rfl rfl rfl rfl rfl rfl none _ _ (ix2 p r)).trans ?_
  unfold rowDot
  refine Finset.sum_congr rfl fun l _ => ?_
  refine congrArg₂ (· * ·) (congrFun (shapeCast_self v3 _) (ix2 p l)) ?_
  exact transpose_10_apply (n := 16) (d := 512) _ _ l r

/-- What the last point of a row of blocks writes: the main accumulator plus the bias, plus twice the
    adapter accumulator's row `p` against row `q` of the second adapter factor's block. -/
theorem pay6_apply (v27 : Vec Ideal S1024x16 .f32) (v29 : Vec Ideal S2048x16 .f32) (v33 : Vec Ideal S2048x1024 .f32)
    (v34 : Vec Ideal S1x1024 .f32) (p : Fin 2048) (q : Fin 1024) :
    k0_pay6 (F := Ideal) v27 v29 v33 v34 (ix2 p q)
      = (v33 (ix2 p q) + v34 (ix2 (0 : Fin 1) q))
        + (∑ r : Fin 16, v29 (ix2 p r) * v27 (ix2 q r)) * Ideal.ofBits .f32 0x40000000#32 := by
  unfold k0_pay6
  refine congrArg₂ (· + ·) (congrArg (v33 (ix2 p q) + ·) ?_) (congrArg (· * Ideal.ofBits .f32 0x40000000#32) ?_)
  · refine (broadcastTo_apply _ broadcasts_S1x1024_S2048x1024 (ix2 p q) (ix2 (0 : Fin 1) q) (fun a => match a with
      | ⟨0, _⟩ => by show (0 : ℕ) = if (1 : ℕ) = 1 then 0 else _; rw [if_pos rfl]
      | ⟨1, _⟩ => by show q.val = if (1024 : ℕ) = 1 then 0 else q.val; rw [if_neg (by decide)])).trans ?_
    exact congrFun (shapeCast_self v34 _) _
  · refine (matmul_zero_rowDot dot_S2048x16_S16x1024_S2048x1024_1_0_0_1_n_n rfl rfl rfl rfl rfl rfl none _ _ (ix2 p q)).trans ?_
    unfold rowDot
    refine Finset.sum_congr rfl fun r _ => ?_
    exact congrArg (v29 (ix2 p r) * ·) (transpose_10_apply (n := 1024) (d := 16) _ _ r q)

end Cert.KernelIdeal.PayIdx

end
-- ==== Proof.Pieces.lean ====
/-
  What one grid point leaves behind, as values. The kernel keeps two accumulators across the 8 points of
  a row of blocks: the main one (2048 × 1024) and the adapter one (2048 × 16).

  * At the first point of a row of blocks both are reset to zero and then receive that point's products:
    the main accumulator ends at `zero + x·wᵀ`, the adapter one at `zero + x·aᵀ`.
  * At a later point each ends at what the point before left plus this point's product.
  * At the last point, besides, the output block is written from the two accumulators as they stand
    AFTER this point's additions, the bias block and the second adapter factor's block.

  Each statement is about the body run on any whole buffers holding any values: the stores' pieces
  cover the buffer, so reading them back gives the stored value, and a load that follows a store of
  the same buffer reads what was stored.
-/
import proofs.«167257_j76836964925565_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

theorem hz : (![0, 0] : Fin 2 → Nat) = fun _ => 0 := funext fun a => by fin_cases a <;> rfl

/- The body's operands: a grid point, the six windows' staging buffers and the two accumulators, all
   whole; the five input blocks they hold. -/
variable (c : Dev nD) (i : grid0.Coords)
  (arg3 : Memref sig .tc .vmem S2048x512 .f32) (harg3 : arg3.IsWhole)
  (arg4 : Memref sig .tc .vmem S1024x512 .f32) (harg4 : arg4.IsWhole)
  (arg5 : Memref sig .tc .vmem S1x1024 .f32) (harg5 : arg5.IsWhole)
  (arg6 : Memref sig .tc .vmem S16x512 .f32) (harg6 : arg6.IsWhole)
  (arg7 : Memref sig .tc .vmem S1024x16 .f32) (harg7 : arg7.IsWhole)
  (arg8 : Memref sig .tc .vmem S2048x1024 .f32) (harg8 : arg8.IsWhole)
  (arg9 : Memref sig .tc .vmem S2048x1024 .f32) (harg9 : arg9.IsWhole)
  (arg10 : Memref sig .tc .vmem S2048x16 .f32) (harg10 : arg10.IsWhole)
  (x0 : Vec F S2048x512 .f32) (x1 : Vec F S1024x512 .f32) (x2 : Vec F S1x1024 .f32)
  (x3 : Vec F S16x512 .f32) (x4 : Vec F S1024x16 .f32)

section First

variable (hc0 : cond0_0 i) (hc1 : ¬cond0_1 i)

/-- First point of a row of blocks, main accumulator: the zero block plus the point's product. -/
theorem mainA :
    sout0_A_0 c i arg3 harg3 arg4 harg4 arg5 harg5 arg6 harg6 arg7 harg7 arg8 harg8 arg9 harg9 arg10 harg10 hc0 hc1
        x0 x1 x2 x3 x4
      = k0_pay4 x0 x1 k0_pay1 := by
  unfold sout0_A_0
  rw [View.read_writes_eq_canon _ _ _ (scover0_A_0 c i arg3 harg3 arg4 harg4 arg5 harg5 arg6 harg6 arg7 harg7 arg8 harg8
    arg9 harg9 arg10 harg10 hc0 hc1 x0 x1 x2 x3 x4)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, View.ld_unit_zero (S := S2048x512) hz,
    View.ld_unit_zero (S := S1024x512) hz]

/-- First point of a row of blocks, adapter accumulator: the zero block plus the point's product. -/
theorem lowA :
    sout0_A_1 c i arg3 harg3 arg4 harg4 arg5 harg5 arg6 harg6 arg7 harg7 arg8 harg8 arg9 harg9 arg10 harg10 hc0 hc1
        x0 x1 x2 x3 x4
      = k0_pay5 x0 x3 k0_pay2 := by
  unfold sout0_A_1
  rw [View.read_writes_eq_canon _ _ _ (scover0_A_1 c i arg3 harg3 arg4 harg4 arg5 harg5 arg6 harg6 arg7 harg7 arg8 harg8
    arg9 harg9 arg10 harg10 hc0 hc1 x0 x1 x2 x3 x4)]
  unfold kernelRun0_A
  dsimp only
  sl_unfold_words
  rw [View.canon_cons_unit_zero (S := S2048x16) hz, View.readCov_unit_zero (S := S2048x16) _ hz]
  simp only [View.readAt_eq_ld, harg3.read_unread, harg6.read_unread, View.ld_unit_zero (S := S2048x512) hz,
    View.ld_unit_zero (S := S16x512) hz]

end First

/- At the later points the accumulators arrive holding what the point before left. -/
variable (xs0 : Vec F S2048x1024 .f32) (xs1 : Vec F S2048x16 .f32)

section Middle

variable (hc0 : ¬cond0_0 i) (hc1 : ¬cond0_1 i)

/-- A middle point, main accumulator: what the point before left plus the point's product. -/
theorem mainB :
    sout0_B_0 c i arg3 harg3 arg4 harg4 arg5 harg5 arg6 harg6 arg7 harg7 arg8 harg8 arg9 harg9 arg10 harg10 hc0 hc1
        x0 x1 x2 x3 x4 xs0 xs1
      = k0_pay4 x0 x1 xs0 := by
  unfold sout0_B_0
  rw [View.read_writes_eq_canon _ _ _ (scover0_B_0 c i arg3 harg3 arg4 harg4 arg5 harg5 arg6 harg6 arg7 harg7 arg8 harg8
    arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg9.read_unread,
    View.ld_unit_zero (S := S2048x512) hz, View.ld_unit_zero (S := S1024x512) hz, View.ld_unit_zero (S := S2048x1024) hz]

/-- A middle point, adapter accumulator: what the point before left plus the point's product. -/
theorem lowB :
    sout0_B_1 c i arg3 harg3 arg4 harg4 arg5 harg5 arg6 harg6 arg7 harg7 arg8 harg8 arg9 harg9 arg10 harg10 hc0 hc1
        x0 x1 x2 x3 x4 xs0 xs1
      = k0_pay5 x0 x3 xs1 := by
  unfold sout0_B_1
  rw [View.read_writes_eq_canon _ _ _ (scover0_B_1 c i arg3 harg3 arg4 harg4 arg5 harg5 arg6 harg6 arg7 harg7 arg8 harg8
    arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg6.read_unread, harg10.read_unread,
    View.ld_unit_zero (S := S2048x512) hz, View.ld_unit_zero (S := S16x512) hz, View.ld_unit_zero (S := S2048x16) hz]

end Middle

section Last

variable (hc0 : ¬cond0_0 i) (hc1 : cond0_1 i)

/-- The last point of a row of blocks, main accumulator: as at a middle point. -/
theorem mainC :
    sout0_C_0 c i arg3 harg3 arg4 harg4 arg5 harg5 arg6 harg6 arg7 harg7 arg8 harg8 arg9 harg9 arg10 harg10 hc0 hc1
        x0 x1 x2 x3 x4 xs0 xs1
      = k0_pay4 x0 x1 xs0 := by
  unfold sout0_C_0
  rw [View.read_writes_eq_canon _ _ _ (scover0_C_0 c i arg3 harg3 arg4 harg4 arg5 harg5 arg6 harg6 arg7 harg7 arg8 harg8
    arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg9.read_unread,
    View.ld_unit_zero (S := S2048x512) hz, View.ld_unit_zero (S := S1024x512) hz, View.ld_unit_zero (S := S2048x1024) hz]

/-- The last point of a row of blocks, adapter accumulator: as at a middle point. -/
theorem lowC :
    sout0_C_1 c i arg3 harg3 arg4 harg4 arg5 harg5 arg6 harg6 arg7 harg7 arg8 harg8 arg9 harg9 arg10 harg10 hc0 hc1
        x0 x1 x2 x3 x4 xs0 xs1
      = k0_pay5 x0 x3 xs1 := by
  unfold sout0_C_1
  rw [View.read_writes_eq_canon _ _ _ (scover0_C_1 c i arg3 harg3 arg4 harg4 arg5 harg5 arg6 harg6 arg7 harg7 arg8 harg8
    arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg6.read_unread, harg10.read_unread,
    View.ld_unit_zero (S := S2048x512) hz, View.ld_unit_zero (S := S16x512) hz, View.ld_unit_zero (S := S2048x16) hz]

/-- The last point of a row of blocks, the output block: written from both accumulators as this point
    leaves them (the loads that feed it come after this point's stores into the accumulators). -/
theorem outC :
    out0_C_5 c i arg3 harg3 arg4 harg4 arg5 harg5 arg6 harg6 arg7 harg7 arg8 harg8 arg9 harg9 arg10 harg10 hc0 hc1
        x0 x1 x2 x3 x4 xs0 xs1
      = k0_pay6 x4 (k0_pay5 x0 x3 xs1) (k0_pay4 x0 x1 xs0) x2 := by
  unfold out0_C_5
  rw [View.read_writes_eq_canon _ _ _ (cover0_C_5 c i arg3 harg3 arg4 harg4 arg5 harg5 arg6 harg6 arg7 harg7 arg8 harg8
    arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread,
    harg7.read_unread, harg9.read_unread, harg10.read_unread, View.ld_unit_zero (S := S2048x512) hz,
    View.ld_unit_zero (S := S1024x512) hz, View.ld_unit_zero (S := S1x1024) hz, View.ld_unit_zero (S := S16x512) hz,
    View.ld_unit_zero (S := S1024x16) hz, View.ld_unit_zero (S := S2048x1024) hz, View.ld_unit_zero (S := S2048x16) hz,
    View.readCov_unit_zero (S := S2048x1024) _ hz, View.readCov_unit_zero (S := S2048x16) _ hz]

end Last

end Cert.KernelIdeal.Pieces

end
-- ==== Proof.Acc.lean ====
/-
  The two accumulators after each grid point, and the output block the last point of a row of blocks
  writes.

  Within a row of blocks (8 consecutive points `8g … 8g + 7`, same row block and column block) the main
  accumulator after point `n` holds, at `(p, q)`, the sum over the steps `s ≤ n % 8` of block `s`'s share
  of row `2048·(n/32) + p` of the activations against row `1024·(n/8%4) + q` of the weight; the adapter
  accumulator the same against row `r` of the first adapter factor. By induction on the point: the
  first point of a row of blocks starts from zero, every later one adds its share to what the point
  before left.
-/
import proofs.«167257_j76836964925565_1_alg».proof.Proof.Gen.KernelIdeal.Frame
import proofs.«167257_j76836964925565_1_alg».proof.Proof.Spec
import proofs.«167257_j76836964925565_1_alg».proof.Proof.PayIdx
import proofs.«167257_j76836964925565_1_alg».proof.Proof.Pieces
import proofs.«167257_j76836964925565_1_alg».proof.Proof.Blocks

set_option maxRecDepth 16384

noncomputable section

open scoped BigOperators

namespace Cert.KernelIdeal.Acc

open Idealize.ShloMosaic Idealize.ShloMosaic.TcCoe Idealize.ShloMosaic.ValueIdx Idealize.SL.Sem
open Cert.KernelIdeal Cert.KernelIdeal.Gen Cert.LibRowDot Cert.Spec
open Cert.KernelIdeal.Blocks Cert.KernelIdeal.Pieces Cert.KernelIdeal.PayIdx

variable (m : (ℓ : Loc nD τ sig) → Buf (Elt Ideal) ℓ)

/-- The main accumulator after point `n`. -/
abbrev mainAt (c : Dev nD) (n : ℕ) (hn : n < cfg0.N) : Vec Ideal S2048x1024 .f32 := (outsAt0 m c n hn).2.1
/-- The adapter accumulator after point `n`. -/
abbrev lowAt (c : Dev nD) (n : ℕ) (hn : n < cfg0.N) : Vec Ideal S2048x16 .f32 := (outsAt0 m c n hn).2.2
/-- The output's staging buffer after point `n`. -/
abbrev outAt (c : Dev nD) (n : ℕ) (hn : n < cfg0.N) : Vec Ideal S2048x1024 .f32 := (outsAt0 m c n hn).1

theorem pred_lt (t : Fin cfg0.N) : t.val - 1 < cfg0.N := Nat.lt_of_le_of_lt (Nat.sub_le _ _) t.isLt

/-! ## One point's step, block by block -/

theorem mainAt_first (c : Dev nD) (t : Fin cfg0.N) (h0 : t.val % 8 = 0) :
    mainAt m c t.val t.isLt = k0_pay4 (blk0 m c t) (blk1 m c t) (k0_pay1 (F := Ideal)) := by
  have h1 : ¬t.val % 8 = 7 := by omega
  show (outsAt0 m c t.val t.isLt).2.1 = _
  rw [outsAt0_A m c t h0 h1]
  dsimp only
  exact mainA (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) scM0_1 (Memref.isWhole_whole _)
    (iblk m c 0 t) (iblk m c 1 t) (iblk m c 2 t) (iblk m c 3 t) (iblk m c 4 t)
    ((hcond0_0 t).mpr h0) (fun h => h1 ((hcond0_1 t).mp h))

theorem lowAt_first (c : Dev nD) (t : Fin cfg0.N) (h0 : t.val % 8 = 0) :
    lowAt m c t.val t.isLt = k0_pay5 (blk0 m c t) (blk3 m c t) (k0_pay2 (F := Ideal)) := by
  have h1 : ¬t.val % 8 = 7 := by omega
  show (outsAt0 m c t.val t.isLt).2.2 = _
  rw [outsAt0_A m c t h0 h1]
  dsimp only
  exact lowA (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) scM0_1 (Memref.isWhole_whole _)
    (iblk m c 0 t) (iblk m c 1 t) (iblk m c 2 t) (iblk m c 3 t) (iblk m c 4 t)
    ((hcond0_0 t).mpr h0) (fun h => h1 ((hcond0_1 t).mp h))

theorem mainAt_later (c : Dev nD) (t : Fin cfg0.N) (h0 : ¬t.val % 8 = 0) :
    mainAt m c t.val t.isLt = k0_pay4 (blk0 m c t) (blk1 m c t) (mainAt m c (t.val - 1) (pred_lt t)) := by
  show (outsAt0 m c t.val t.isLt).2.1 = _
  by_cases h1 : t.val % 8 = 7
  · rw [outsAt0_C m c t h0 h1]
    dsimp only
    exact mainC (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _)
      (iblk m c 0 t) (iblk m c 1 t) (iblk m c 2 t) (iblk m c 3 t) (iblk m c 4 t)
      (outsAt0 m c (t.val - 1) (pred_lt t)).2.1 (outsAt0 m c (t.val - 1) (pred_lt t)).2.2
      (fun h => h0 ((hcond0_0 t).mp h)) ((hcond0_1 t).mpr h1)
  · rw [outsAt0_B m c t h0 h1]
    dsimp only
    exact mainB (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _)
      (iblk m c 0 t) (iblk m c 1 t) (iblk m c 2 t) (iblk m c 3 t) (iblk m c 4 t)
      (outsAt0 m c (t.val - 1) (pred_lt t)).2.1 (outsAt0 m c (t.val - 1) (pred_lt t)).2.2
      (fun h => h0 ((hcond0_0 t).mp h)) (fun h => h1 ((hcond0_1 t).mp h))

theorem lowAt_later (c : Dev nD) (t : Fin cfg0.N) (h0 : ¬t.val % 8 = 0) :
    lowAt m c t.val t.isLt = k0_pay5 (blk0 m c t) (blk3 m c t) (lowAt m c (t.val - 1) (pred_lt t)) := by
  show (outsAt0 m c t.val t.isLt).2.2 = _
  by_cases h1 : t.val % 8 = 7
  · rw [outsAt0_C m c t h0 h1]
    dsimp only
    exact lowC (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _)
      (iblk m c 0 t) (iblk m c 1 t) (iblk m c 2 t) (iblk m c 3 t) (iblk m c 4 t)
      (outsAt0 m c (t.val - 1) (pred_lt t)).2.1 (outsAt0 m c (t.val - 1) (pred_lt t)).2.2
      (fun h => h0 ((hcond0_0 t).mp h)) ((hcond0_1 t).mpr h1)
  · rw [outsAt0_B m c t h0 h1]
    dsimp only
    exact lowB (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) scM0_1 (Memref.isWhole_whole _)
      (iblk m c 0 t) (iblk m c 1 t) (iblk m c 2 t) (iblk m c 3 t) (iblk m c 4 t)
      (outsAt0 m c (t.val - 1) (pred_lt t)).2.1 (outsAt0 m c (t.val - 1) (pred_lt t)).2.2
      (fun h => h0 ((hcond0_0 t).mp h)) (fun h => h1 ((hcond0_1 t).mp h))

/-- The last point of a row of blocks writes the output block from the accumulators as it leaves them. -/
theorem outAt_last (c : Dev nD) (t : Fin cfg0.N) (h1 : t.val % 8 = 7) :
    outAt m c t.val t.isLt
      = k0_pay6 (blk4 m c t) (lowAt m c t.val t.isLt) (mainAt m c t.val t.isLt) (blk2 m c t) := by
  have h0 : ¬t.val % 8 = 0 := by omega
  rw [lowAt_later m c t h0, mainAt_later m c t h0]
  show (outsAt0 m c t.val t.isLt).1 = _
  rw [outsAt0_C m c t h0 h1]
  dsimp only
  exact outC (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) scM0_1 (Memref.isWhole_whole _)
    (iblk m c 0 t) (iblk m c 1 t) (iblk m c 2 t) (iblk m c 3 t) (iblk m c 4 t)
    (outsAt0 m c (t.val - 1) (pred_lt t)).2.1 (outsAt0 m c (t.val - 1) (pred_lt t)).2.2
    (fun h => h0 ((hcond0_0 t).mp h)) ((hcond0_1 t).mpr h1)

/-! ## The running sums -/

/-- The main accumulator after point `n`: the shares of the steps `0 … n % 8`. -/
theorem main_inv (c : Dev nD) : ∀ (n : ℕ) (hn : n < cfg0.N) (p : Fin 2048) (q : Fin 1024),
    mainAt m c n hn (ix2 p q)
      = ∑ s ∈ Finset.range (n % 8 + 1), blkDot (X2 m c) (Wm m c) (n / 32 * 2048 + p.val) (n / 8 % 4 * 1024 + q.val) s := by
  intro n
  induction n with
  | zero =>
    intro hn p q
    rw [mainAt_first m c ⟨0, hn⟩ rfl, pay4_apply, pay1_apply, zero_add]
    simp only [blk0_apply, blk1_apply]
    rw [Finset.sum_range_one]
    rfl
  | succ k ih =>
    intro hn p q
    by_cases h0 : (k + 1) % 8 = 0
    · rw [mainAt_first m c ⟨k + 1, hn⟩ h0, pay4_apply, pay1_apply, zero_add]
      simp only [blk0_apply, blk1_apply]
      rw [h0, Finset.sum_range_one]
      rfl
    · rw [mainAt_later m c ⟨k + 1, hn⟩ h0, pay4_apply]
      simp only [blk0_apply, blk1_apply]
      have e1 : (k + 1) / 32 = k / 32 := by omega
      have e2 : (k + 1) / 8 % 4 = k / 8 % 4 := by omega
      have e3 : (k + 1) % 8 = k % 8 + 1 := by omega
      show mainAt m c k _ (ix2 p q) + _ = _
      rw [ih (Nat.lt_of_succ_lt hn) p q, e1, e2, e3, Finset.sum_range_succ _ (k % 8 + 1)]
      rfl

/-- The adapter accumulator after point `n`: the shares of the steps `0 … n % 8`. -/
theorem low_inv (c : Dev nD) : ∀ (n : ℕ) (hn : n < cfg0.N) (p : Fin 2048) (r : Fin 16),
    lowAt m c n hn (ix2 p r)
      = ∑ s ∈ Finset.range (n % 8 + 1), blkDot (X2 m c) (Am m c) (n / 32 * 2048 + p.val) r.val s := by
  intro n
  induction n with
  | zero =>
    intro hn p r
    rw [lowAt_first m c ⟨0, hn⟩ rfl, pay5_apply, pay2_apply, zero_add]
    simp only [blk0_apply, blk3_apply]
    rw [Finset.sum_range_one]
    rfl
  | succ k ih =>
    intro hn p r
    by_cases h0 : (k + 1) % 8 = 0
    · rw [lowAt_first m c ⟨k + 1, hn⟩ h0, pay5_apply, pay2_apply, zero_add]
      simp only [blk0_apply, blk3_apply]
      rw [h0, Finset.sum_range_one]
      rfl
    · rw [lowAt_later m c ⟨k + 1, hn⟩ h0, pay5_apply]
      simp only [blk0_apply, blk3_apply]
      have e1 : (k + 1) / 32 = k / 32 := by omega
      have e3 : (k + 1) % 8 = k % 8 + 1 := by omega
      show lowAt m c k _ (ix2 p r) + _ = _
      rw [ih (Nat.lt_of_succ_lt hn) p r, e1, e3, Finset.sum_range_succ _ (k % 8 + 1)]
      rfl

/-! ## The output block -/

/-- What the last point of a row of blocks writes is its block of the flattened layer. -/
theorem outAt_apply (c : Dev nD) (t : Fin cfg0.N) (h1 : t.val % 8 = 7) (p : Fin 2048) (q : Fin 1024) :
    outAt m c t.val t.isLt (ix2 p q)
      = G2 (X2 m c) (Wm m c) (B2 m c) (Am m c) (Bm m c) (ix2 (outRow t p) (outCol t q)) := by
  rw [outAt_last m c t h1, pay6_apply, main_inv m c t.val t.isLt p q]
  simp only [low_inv m c t.val t.isLt p, blk2_apply, blk4_apply]
  rw [h1]
  show (∑ s ∈ Finset.range 8, blkDot (X2 m c) (Wm m c) (outRow t p).val (outCol t q).val s + _)
      + (∑ r : Fin 16, (∑ s ∈ Finset.range 8, blkDot (X2 m c) (Am m c) (outRow t p).val r.val s) * _) * _ = _
  simp only [sum_blkDot]
  rfl

end Cert.KernelIdeal.Acc

end
-- ==== Proof.Final.lean ====
/-
  The kernel's result array. The output window's blocks are written back at the last point of each row
  of blocks only (16 of the 128 points), block `(t/32, t/8%4)`; those 16 blocks tile the 8192 × 4096
  array, and each is its block of the flattened layer `Spec.G2` of the arrays the region finds. After the
  region the host un-flattens the array; with the flattening the host did before the region, the
  program's result is the layer `Spec.G` of its five arguments.
-/
import proofs.«167257_j76836964925565_1_alg».proof.Proof.Gen.KernelIdeal.Frame
import proofs.«167257_j76836964925565_1_alg».proof.Proof.Spec
import proofs.«167257_j76836964925565_1_alg».proof.Proof.Blocks
import proofs.«167257_j76836964925565_1_alg».proof.Proof.Acc
import Idealize.ShloMosaic.Lib.Pipeline.Value
import Idealize.ShloMosaic.Lib.StableHlo.Run
import Idealize.ShloMosaic.Lib.Tactic

set_option maxRecDepth 16384

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.LibRowDot Cert.Spec
open Cert.KernelIdeal.Blocks Cert.KernelIdeal.Acc

variable (m : (ℓ : Loc nD τ sig) → Buf (Elt Ideal) ℓ) (ρ : Dev nD → PrngReg)

/-- The flattened layer of the arrays the region finds. -/
abbrev flat (c : Dev nD) : Mat 8192 4096 := G2 (X2 m c) (Wm m c) (B2 m c) (Am m c) (Bm m c)

/-- What a writing-back point writes back is its block of the flattened layer. -/
theorem flushed_eq (c : Dev nD) (t : Fin cfg0.N) (hf : (cfg0.win 5).flush t = true) :
    (dats m 0 c).flushed 5 t = ((cfg0.win 5).blk t).view.read (Elt Ideal) (flat m c) := by
  have h7 : t.val % 8 = 7 := (flush0_5 t).mp hf
  show (cfg0.win 5).cut (grid0.coords t) ((dats m 0 c).after 5 t) = _
  rw [after0_5]
  funext j
  obtain ⟨p, q, rfl⟩ : ∃ (p : Fin 2048) (q : Fin 1024), (j : S2048x1024.Idx) = ix2 p q := ⟨j 0, j 1, eq_ix2 j⟩
  show outAt m c t.val t.isLt (ix2 p q) = flat m c (((cfg0.win 5).blk t).view.emb (ix2 p q))
  rw [outAt_apply m c t h7 p q]
  congr 1
  funext a
  apply Fin.ext
  match a with
  | ⟨0, _⟩ => show t.val / 32 * 2048 + p.val = win0_5.index t 0 * 2048 + 1 * p.val; rw [(idx5 t).1]; omega
  | ⟨1, _⟩ => show t.val / 8 % 4 * 1024 + q.val = win0_5.index t 1 * 1024 + 1 * q.val; rw [(idx5 t).2]; omega

/-- An index of the array is in point `t`'s block iff each coordinate is in the block's range on its axis. -/
theorem mem_blk (t : Fin cfg0.N) (i : S8192x4096.Idx) :
    i ∈ ((cfg0.win 5).blk t).view.set ↔ ∀ a : Fin 2, win0_5.index t a * S2048x1024.size a ≤ (i a).val
      ∧ (i a).val < win0_5.index t a * S2048x1024.size a + S2048x1024.size a := by
  show i ∈ ((View.whole main_v2).slice (win0_5.rect t)).set ↔ _
  rw [View.set_slice_whole, Rect.mem_set_unit]
  exact Iff.rfl

/-- Every index of the array is in the block of the last point of its row of blocks. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 128 := N_0
  have ht : (i 0).val / 2048 * 32 + (i 1).val / 1024 * 8 + 7 < cfg0.N := by rw [hN]; omega
  refine ⟨⟨(i 0).val / 2048 * 32 + (i 1).val / 1024 * 8 + 7, ht⟩, (flush0_5 _).mpr (by
    show ((i 0).val / 2048 * 32 + (i 1).val / 1024 * 8 + 7) % 8 = 7; omega), ?_⟩
  rw [mem_blk]
  intro a
  match a with
  | ⟨0, _⟩ =>
    show win0_5.index _ 0 * 2048 ≤ (i 0).val ∧ (i 0).val < win0_5.index _ 0 * 2048 + 2048
    rw [(idx5 _).1]
    show ((i 0).val / 2048 * 32 + (i 1).val / 1024 * 8 + 7) / 32 * 2048 ≤ (i 0).val
      ∧ (i 0).val < ((i 0).val / 2048 * 32 + (i 1).val / 1024 * 8 + 7) / 32 * 2048 + 2048
    omega
  | ⟨1, _⟩ =>
    show win0_5.index _ 1 * 1024 ≤ (i 1).val ∧ (i 1).val < win0_5.index _ 1 * 1024 + 1024
    rw [(idx5 _).2]
    show ((i 0).val / 2048 * 32 + (i 1).val / 1024 * 8 + 7) / 8 % 4 * 1024 ≤ (i 1).val
      ∧ (i 1).val < ((i 0).val / 2048 * 32 + (i 1).val / 1024 * 8 + 7) / 8 % 4 * 1024 + 1024
    omega

/-- The output array after the region: the flattened layer. -/
theorem final (c : Dev nD) : (dats m 0 c).arrAt 5 cfg0.N = flat m c :=
  (dats m 0 c).arrAt_eq_of_cover 5 (flat m c) (flushed_eq m c) cover

/-- The layer of the program's five arguments. -/
abbrev result (c : Dev nD) : Buf (Elt Ideal) ((c : Thread nD τ).loc main_v3) :=
  G (m ((c : Thread nD τ).loc main_arg0)) (m ((c : Thread nD τ).loc main_arg1)) (m ((c : Thread nD τ).loc main_arg2))
    (m ((c : Thread nD τ).loc main_arg3)) (m ((c : Thread nD τ).loc main_arg4))

/-- The flattened layer of what the region finds, un-flattened, is the layer of the arguments. -/
theorem unflatten_flat (c : Dev nD) :
    shapeCast S4x2048x4096 (flat m c) shapeCasts_S8192x4096_S4x2048x4096 = result m c := by
  unfold flat
  rw [X2_eq, B2_eq, Wm_eq, Am_eq, Bm_eq]
  exact G2_reshape _ _ _ _ _ shapeCasts_S4x2048x4096_S8192x4096 shapeCasts_S4096_S1x4096 shapeCasts_S8192x4096_S4x2048x4096

/-- The host's reshape after the region leaves the layer in the result buffer. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  refine Eq.trans ?_ (unflatten_flat m c)
  refine congrArg (fun y => shapeCast S4x2048x4096 y shapeCasts_S8192x4096_S4x2048x4096) ?_
  exact (Pipeline.withArrays_arr spec0 launch0.win.arr_inj c _ _ 5).trans (final m c)

/-- The run, read: the result buffer at the layer of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Final

end
-- ==== Proof.lean ====
/-
  A linear layer with a low-rank adapter, `out = x·Wᵀ + b + 2·(x·Aᵀ)·Bᵀ` on activations
  4 × 2048 × 4096, as one tiled kernel against the plain formula.

  The kernel flattens the activations to 8192 rows and walks a 4 × 4 × 8 grid: for each 2048-row block
  and each 1024-column block it accumulates, over 8 steps of 512 contracted positions, the block of
  `x·Wᵀ` and the 2048 × 16 block of `x·Aᵀ`; the last step adds the bias and twice the product of the
  small accumulator with the block of `B`, and writes the output block. Over the extended reals every
  change of float format is the identity and a sum may be grouped in any way, so the 8 partial sums of
  512 terms are the one sum of 4096 terms the reference takes, and the result is the same function
  `Spec.G` of the five arguments on both sides; no finiteness of the inputs is used.

  The frames of the two kernel programs are the generated ones; the reference's frame is its run with
  the result dropped; the ideal pass rewrote nothing, so there is nothing to preserve.
-/
import proofs.«167257_j76836964925565_1_alg».proof.Defs
import proofs.«167257_j76836964925565_1_alg».proof.Proof.Gen.Kernel
import proofs.«167257_j76836964925565_1_alg».proof.Proof.Gen.Kernel.Skeleton
import proofs.«167257_j76836964925565_1_alg».proof.Proof.Gen.Kernel.Launch
import proofs.«167257_j76836964925565_1_alg».proof.Proof.Gen.Kernel.Points
import proofs.«167257_j76836964925565_1_alg».proof.Proof.Gen.Kernel.Frame
import proofs.«167257_j76836964925565_1_alg».proof.Proof.Gen.KernelIdeal
import proofs.«167257_j76836964925565_1_alg».proof.Proof.Gen.KernelIdeal.Skeleton
import proofs.«167257_j76836964925565_1_alg».proof.Proof.Gen.KernelIdeal.Launch
import proofs.«167257_j76836964925565_1_alg».proof.Proof.Gen.KernelIdeal.Points
import proofs.«167257_j76836964925565_1_alg».proof.Proof.Gen.KernelIdeal.Frame
import proofs.«167257_j76836964925565_1_alg».proof.Proof.Gen.ReferenceIdeal
import proofs.«167257_j76836964925565_1_alg».proof.Proof.Gen.Pre_finite_inputs
import proofs.«167257_j76836964925565_1_alg».proof.Proof.Gen.ReferenceIdeal.Run
import proofs.«167257_j76836964925565_1_alg».proof.Proof.Gen.ReferenceIdeal.Read
import proofs.«167257_j76836964925565_1_alg».proof.Proof.RefValue
import proofs.«167257_j76836964925565_1_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run keeps its arguments. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer `Spec.G` of arguments that agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq_G, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
